-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128x10 .f32) (main_arg7 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x10 .f32 := Host.absf main_arg6
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S100000x512 .f32) (main_arg1 : IVec S1600000 32) (main_arg2 : IVec S1600000 32) (main_arg3 : FVec F S1600000 .f32) (main_arg4 : FVec F S512x128 .f32) (main_arg5 : FVec F S128 .f32) (main_arg6 : FVec F S128x10 .f32) (main_arg7 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x10 : Shape := ⟨2, ![128, 10]⟩
abbrev S10 : Shape := ⟨1, ![10]⟩
abbrev S100000x128 : Shape := ⟨2, ![100000, 128]⟩
abbrev S2000x512 : Shape := ⟨2, ![2000, 512]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x10 : Shape := ⟨2, ![100000, 10]⟩
abbrev S2000x10 : Shape := ⟨2, ![2000, 10]⟩
abbrev S1600000x10 : Shape := ⟨2, ![1600000, 10]⟩
abbrev S1x10 : Shape := ⟨2, ![1, 10]⟩

abbrev nBuf : Space → Nat
  | .hbm => 44
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S100000x10, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x10, .f32⟩
  | .hbm, ⟨36, _⟩ => ⟨S1600000x1, .f32⟩
  | .hbm, ⟨37, _⟩ => ⟨S1600000x10, .f32⟩
  | .hbm, ⟨38, _⟩ => ⟨S1600000x10, .f32⟩
  | .hbm, ⟨39, _⟩ => ⟨S_, .f32⟩
  | .hbm, ⟨40, _⟩ => ⟨S100000x10, .f32⟩
  | .hbm, ⟨41, _⟩ => ⟨S1600000x1, .i32⟩
  | .hbm, ⟨42, _⟩ => ⟨S100000x10, .f32⟩
  | .hbm, ⟨43, _⟩ => ⟨S100000x10, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x10, .f32⟩
  | .local _ .vmem, ⟨13, _⟩ => ⟨S2000x10, .f32⟩
  | .local _ .vmem, ⟨14, _⟩ => ⟨S2000x10, .f32⟩
  | .local _ .vmem, ⟨15, _⟩ => ⟨S2000x10, .f32⟩
  | .local _ .vmem, ⟨16, _⟩ => ⟨S2000x10, .f32⟩
  | .local _ .vmem, ⟨17, _⟩ => ⟨S10, .f32⟩
  | .local _ .vmem, ⟨18, _⟩ => ⟨S2000x10, .f32⟩
  | .local _ .vmem, ⟨19, _⟩ => ⟨S2000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  shapeCasts_S2000x128_S2000x128 : S2000x128.ShapeCasts S2000x128
  broadcasts_S1x128_S2000x128 : S1x128.Broadcasts S2000x128
  inb_S128x10_S128x10_0_0 : ∀ a, (![0, 0] : Fin 2 → Nat) a + S128x10.size a ≤ S128x10.size a
  h_S128x10 : 0 < S128x10.numel
  inb_S2000x10_S2000x10_0_0 : ∀ a, (![0, 0] : Fin 2 → Nat) a + S2000x10.size a ≤ S2000x10.size a
  h_S2000x10 : 0 < S2000x10.numel
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  inb_S10_S10_0 : ∀ a, (![0] : Fin 1 → Nat) a + S10.size a ≤ S10.size a
  h_S10 : 0 < S10.numel
  shapeCasts_S10_S1x10 : S10.ShapeCasts S1x10
  shapeCasts_S2000x10_S2000x10 : S2000x10.ShapeCasts S2000x10
  broadcasts_S1x10_S2000x10 : S1x10.Broadcasts S2000x10
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x10_S2000x10_1_0_0_1_n_n_wf : DotDims.WF S2000x128 S128x10 S2000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .f32 = 32 ∨ (Rect.block (s := S128x10) S128x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x10.size a ≤ S100000x10.size a
  hwx2_2 : ∀ i : grid2.Coords, EltTy.bits .f32 = 32 ∨ (Rect.block (s := S100000x10) S2000x10.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x10.size a ≤ S100000x10.size a
  hwx3_0 : ∀ i : grid3.Coords, EltTy.bits .f32 = 32 ∨ (Rect.block (s := S100000x10) S2000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10.size a ≤ S10.size a
  hwx3_1 : ∀ i : grid3.Coords, EltTy.bits .f32 = 32 ∨ (Rect.block (s := S10) S10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x10.size a ≤ S100000x10.size a
  hwx3_2 : ∀ i : grid3.Coords, EltTy.bits .f32 = 32 ∨ (Rect.block (s := S100000x10) S2000x10.size (cc3_transform_2 i) (hinb3_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S2000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S2000x10.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x10 : Shape := ⟨2, ![128, 10]⟩
abbrev S10 : Shape := ⟨1, ![10]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x10 : Shape := ⟨2, ![100000, 10]⟩
abbrev S1600000x10 : Shape := ⟨2, ![1600000, 10]⟩
abbrev S1x10 : Shape := ⟨2, ![1, 10]⟩

abbrev nBuf : Space → Nat
  | .hbm => 51
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x10, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x10, .f32⟩
  | .hbm, ⟨42, _⟩ => ⟨S1600000x10, .f32⟩
  | .hbm, ⟨43, _⟩ => ⟨S1600000x10, .f32⟩
  | .hbm, ⟨44, _⟩ => ⟨S_, .f32⟩
  | .hbm, ⟨45, _⟩ => ⟨S100000x10, .f32⟩
  | .hbm, ⟨46, _⟩ => ⟨S1600000x1, .i32⟩
  | .hbm, ⟨47, _⟩ => ⟨S100000x10, .f32⟩
  | .hbm, ⟨48, _⟩ => ⟨S1x10, .f32⟩
  | .hbm, ⟨49, _⟩ => ⟨S100000x10, .f32⟩
  | .hbm, ⟨50, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x10_S100000x10_1_0_0_1_n_n_wf : DotDims.WF S100000x128 S128x10 S100000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

class Facts : Prop extends Facts₀ where

variable [Facts]
-- ==== Proof.Proj1Block.lean ====
import proofs.«132294_j70961449665143_1_alg».proof.Proof.Gen.KernelIdeal.Skeleton
import Idealize.ShloMosaic.Lib.ValueIdx
import Idealize.ShloMosaic.Lib.Pipeline.Value
import Idealize.ShloMosaic.PureOps.Ideal.Laws

/-!
The product a grid point computes in the first dense projection, read at one entry of its
block: over the extended reals a change of float format is the identity and the product into a zero
accumulator is the plain sum, so entry (p, q) of the block is the sum over k of x(p, k) · w(k, q).
-/

noncomputable section

namespace Cert.Gcn.Proj1

open Cert.KernelIdeal Cert.KernelIdeal.Gen Idealize.ShloMosaic Idealize.ShloMosaic.TcCoe Idealize.SL.Sem

/-- The left operand's row coordinate is the output's row. -/
theorem lhs_row (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- The left operand's column coordinate is the contracted index. -/
theorem lhs_col (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
/-- The right operand's row coordinate is the contracted index. -/
theorem rhs_row (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
/-- The right operand's column coordinate is the output's column. -/
theorem rhs_col (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Entry (row of `i`, k) of the left block. -/
abbrev lrow (i : S2000x128.Idx) (k : Fin 512) : S2000x512.Idx := fun a => match a with
  | ⟨0, _⟩ => ⟨(i 0).val, (i 0).isLt⟩
  | ⟨1, _⟩ => ⟨k.val, k.isLt⟩
/-- Entry (k, column of `i`) of the weight matrix. -/
abbrev rcol (i : S2000x128.Idx) (k : Fin 512) : S512x128.Idx := fun a => match a with
  | ⟨0, _⟩ => ⟨k.val, k.isLt⟩
  | ⟨1, _⟩ => ⟨(i 1).val, (i 1).isLt⟩

/-- One entry of the block product: the sum over the contracted index of the row's entries times the
    column's entries. -/
theorem block_apply (x : Vec Ideal S2000x512 .f32) (w : Vec Ideal S512x128 .f32) (i : S2000x128.Idx) :
    k0_pay1 (F := Ideal) x w i = ∑ k : Fin 512, x (lrow i k) * w (rcol i k) := by
  unfold k0_pay1
  simp only [matmul, shapeCast_self]
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx i ((ValueIdx.contrEquiv1 dot_S2000x512_S512x128_S2000x128_1_0_0_1_n_n 512 rfl rfl).symm k) = lrow i k := funext fun a => Fin.ext (by
    match a with
    | ⟨0, _⟩ => exact lhs_row _ _
    | ⟨1, _⟩ => exact (lhs_col _ _).trans hk)
  have er : dot_S2000x512_S512x128_S2000x128_1_0_0_1_n_n.rhsIdx i ((ValueIdx.contrEquiv1 dot_S2000x512_S512x128_S2000x128_1_0_0_1_n_n 512 rfl rfl).symm k) = rcol i k := funext fun a => Fin.ext (by
    match a with
    | ⟨0, _⟩ => exact (rhs_row _ _).trans hk
    | ⟨1, _⟩ => exact rhs_col _ _)
  rw [el, er]
  rfl

end Cert.Gcn.Proj1

end
-- ==== Proof.Proj1Array.lean ====
import proofs.«132294_j70961449665143_1_alg».proof.Proof.Gen.KernelIdeal.Frame
import proofs.«132294_j70961449665143_1_alg».proof.Proof.Proj1Block

/-!
The first dense projection as one function of its two arrays. Grid point t multiplies rows
2000·t … 2000·t + 1999 of x by the whole weight matrix and writes rows 2000·t … of the output; the fifty row
blocks tile the output, so after the region the output array is x · w at every entry.
-/

set_option maxRecDepth 16384

noncomputable section

namespace Cert.Gcn.Proj1

open Cert.KernelIdeal Cert.KernelIdeal.Gen Idealize.ShloMosaic Idealize.ShloMosaic.TcCoe Idealize.SL.Sem
open Idealize.ShloMosaic.Pipeline (Dat Cfg Window)

/-- Entry (row of `i`, k) of x. -/
abbrev arow (i : S100000x128.Idx) (k : Fin 512) : S100000x512.Idx := fun a => match a with
  | ⟨0, _⟩ => ⟨(i 0).val, (i 0).isLt⟩
  | ⟨1, _⟩ => ⟨k.val, k.isLt⟩
/-- Entry (k, column of `i`) of w. -/
abbrev acol (i : S100000x128.Idx) (k : Fin 512) : S512x128.Idx := fun a => match a with
  | ⟨0, _⟩ => ⟨k.val, k.isLt⟩
  | ⟨1, _⟩ => ⟨(i 1).val, (i 1).isLt⟩

/-- The matrix product x · w over the extended reals, entry by entry. -/
def prod (x : (⟨S100000x512, .f32⟩ : BufTy).Contents (Elt Ideal)) (w : (⟨S512x128, .f32⟩ : BufTy).Contents (Elt Ideal)) :
    (⟨S100000x128, .f32⟩ : BufTy).Contents (Elt Ideal) :=
  fun i => ∑ k : Fin 512, x (arow i k) * w (acol i k)

variable (V : (c : Dev nD) → (b : Ref sig .tc) → Buf (Elt Ideal) ((c : Thread nD τ).loc b))

/-- The two arrays the region reads, at their literal types. -/
abbrev xarr (c : Dev nD) : (⟨S100000x512, .f32⟩ : BufTy).Contents (Elt Ideal) := V c main_arg0
abbrev warr (c : Dev nD) : (⟨S512x128, .f32⟩ : BufTy).Contents (Elt Ideal) := V c main_arg4

theorem hz : (![0, 0] : Fin 2 → Nat) = fun _ => 0 := funext fun a => by fin_cases a <;> rfl

/-- The printed index maps over the grid: point t reads row block t of x, the whole of w, and writes row block t. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every row block is some point's. -/
theorem idx_onto : ∀ q : Fin 50, ∃ t : Fin cfg0.N, win0_2.index t = ![q.val, 0] :=
  (by decide +kernel : ∀ q : Fin 50, ∃ t : Fin grid0.N, win0_2.index t = ![q.val, 0])

/-- What point t writes back is block t of the product of the arrays the region was entered with. -/
theorem flushed_eq (c : Dev nD) (t : Fin cfg0.N) :
    (dat0 V c).flushed 2 t = ((cfg0.win 2).blk t).view.read (Elt Ideal) (prod (V c main_arg0) (V c main_arg4)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  funext j
  refine (block_apply (iblk0 V c 0 t) (iblk0 V c 1 t) j).trans ?_
  show _ = ∑ k : Fin 512, xarr V c (arow (((cfg0.win 2).blk t).view.emb j) k) * warr V c (acol (((cfg0.win 2).blk t).view.emb j) k)
  refine Finset.sum_congr rfl fun k _ => ?_
  obtain ⟨e0, e1, e2, e3, e4, e5⟩ := idx_facts t
  have hl : ((cfg0.win 0).blk t).view.emb (lrow j k) = arow (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have hr : ((cfg0.win 1).blk t).view.emb (rcol j k) = acol (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  show xarr V c (((cfg0.win 0).blk t).view.emb (lrow j k)) * warr V c (((cfg0.win 1).blk t).view.emb (rcol j k)) = _
  rw [hl, hr]

/-- An index of the output is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every entry of the output lies in the block of the point its row falls to. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region its output array holds the product of the two arrays it was entered with. -/
theorem array_eq (c : Dev nD) :
    (dat0 V c).arrAt 2 cfg0.N = prod (V c main_arg0) (V c main_arg4) :=
  (dat0 V c).arrAt_eq_of_cover 2 (prod (V c main_arg0) (V c main_arg4)) (fun t _ => flushed_eq V c t) covered

end Cert.Gcn.Proj1

end
-- ==== Proof.Act1Block.lean ====
import proofs.«132294_j70961449665143_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
The first layer's bias and rectifier at one entry of a block: the bias vector is laid out as one row,
repeated down the block's rows and added, and the sum is cut off below at zero; entry (p, q) is
max (a(p, q) + b(q)) 0.
-/

noncomputable section

namespace Cert.Gcn.Act1

open Cert.KernelIdeal Cert.KernelIdeal.Gen Idealize.ShloMosaic Idealize.ShloMosaic.TcCoe Idealize.SL.Sem
open Idealize.ShloMosaic.ValueIdx

/-- One entry of the block: the aggregated value plus its column's bias, cut off below at zero. -/
theorem block_apply (b : Vec Ideal S128 .f32) (a : Vec Ideal S2000x128 .f32) (p : Fin 2000) (q : Fin 128) :
    k1_pay1 (F := Ideal) b a (ix2 p q) = max (a (ix2 p q) + b (ix1 q)) (Ideal.ofBits .f32 0x00000000#32) := by
  unfold k1_pay1
  rw [maximumf_apply, addf_apply, shapeCast_self, broadcastTo_1b_ab_apply, shapeCast_a_1a_apply]
  rfl

end Cert.Gcn.Act1

end
-- ==== Proof.Act1Array.lean ====
import proofs.«132294_j70961449665143_1_alg».proof.Proof.Gen.KernelIdeal.Frame
import proofs.«132294_j70961449665143_1_alg».proof.Proof.Act1Block

/-!
The first layer's bias and rectifier as one function of the aggregated array and the bias vector. Grid
point t takes rows 2000·t … 2000·t + 1999 of the aggregated array, adds the bias to every row, cuts off
below at zero and writes the same rows of the output; the fifty row blocks tile the output.
-/

set_option maxRecDepth 16384

noncomputable section

namespace Cert.Gcn.Act1

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The bias entry of an output entry's column. -/
abbrev bcol (i : S100000x128.Idx) : S128.Idx := fun d => match d with
  | ⟨0, _⟩ => ⟨(i 1).val, (i 1).isLt⟩

/-- Bias added along the rows, then the rectifier, entry by entry. -/
def act (a : (⟨S100000x128, .f32⟩ : BufTy).Contents (Elt Ideal)) (b : (⟨S128, .f32⟩ : BufTy).Contents (Elt Ideal)) :
    (⟨S100000x128, .f32⟩ : BufTy).Contents (Elt Ideal) :=
  fun i => max (a i + b (bcol i)) (Ideal.ofBits .f32 0x00000000#32)

variable (V : (c : Dev nD) → (b : Ref sig .tc) → Buf (Elt Ideal) ((c : Thread nD τ).loc b))

/-- The two arrays the region reads, at their literal types. -/
abbrev aarr (c : Dev nD) : (⟨S100000x128, .f32⟩ : BufTy).Contents (Elt Ideal) := V c main_v13
abbrev barr (c : Dev nD) : (⟨S128, .f32⟩ : BufTy).Contents (Elt Ideal) := V c main_arg5

theorem hz2 : (![0, 0] : Fin 2 → Nat) = fun _ => 0 := funext fun a => by fin_cases a <;> rfl
theorem hz1 : (![0] : Fin 1 → Nat) = fun _ => 0 := funext fun a => by fin_cases a; rfl

/-- The printed index maps over the grid: point t reads row block t of the aggregated array, the whole bias
    vector, and writes row block t. -/
theorem idx_facts : ∀ t : Fin cfg1.N, win1_0.index t (0 : Fin 2) = win1_2.index t (0 : Fin 2)
    ∧ win1_0.index t (1 : Fin 2) = 0
    ∧ win1_1.index t (0 : Fin 1) = 0
    ∧ win1_2.index t (1 : Fin 2) = 0
    ∧ win1_2.index t (0 : Fin 2) ≤ 49 :=
  (by decide +kernel : ∀ t : Fin grid1.N, _)

/-- Every row block is some point's. -/
theorem idx_onto : ∀ q : Fin 50, ∃ t : Fin cfg1.N, win1_2.index t = ![q.val, 0] :=
  (by decide +kernel : ∀ q : Fin 50, ∃ t : Fin grid1.N, win1_2.index t = ![q.val, 0])

/-- What point t writes back is block t of the activation of the arrays the region was entered with. -/
theorem flushed_eq (c : Dev nD) (t : Fin cfg1.N) :
    (dat1 V c).flushed 2 t = ((cfg1.win 2).blk t).view.read (Elt Ideal) (act (V c main_v13) (V c main_arg5)) := by
  show (cfg1.win 2).cut (grid1.coords t) ((dat1 V c).after 2 t) = _
  rw [after1_2]
  unfold out1_2
  rw [View.canon_unit_zero hz2]
  simp only [View.ld_unit_zero (S := S2000x128) hz2, View.ld_unit_zero (S := S128) hz1]
  funext j
  obtain ⟨p, q, rfl⟩ : ∃ (p : Fin 2000) (q : Fin 128), j = ix2 p q := ⟨j 0, j 1, eq_ix2 j⟩
  refine (block_apply (iblk1 V c 1 t) (iblk1 V c 0 t) p q).trans ?_
  obtain ⟨e0, e1, e2, e3, e4⟩ := idx_facts t
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix1 q) = bcol (((cfg1.win 2).blk t).view.emb (ix2 p q)) := by
    funext a; apply Fin.ext
    match a with
    | ⟨0, _⟩ => show win1_1.index t (0 : Fin 1) * 128 + 1 * q.val = win1_2.index t (1 : Fin 2) * 128 + 1 * q.val; omega
  show max (aarr V c (((cfg1.win 0).blk t).view.emb (ix2 p q)) + barr V c (((cfg1.win 1).blk t).view.emb (ix1 q))) _
     = max (aarr V c (((cfg1.win 2).blk t).view.emb (ix2 p q)) + barr V c (bcol (((cfg1.win 2).blk t).view.emb (ix2 p q)))) _
  rw [h0, h1]

/-- An index of the output is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v14).slice (win1_2.rect t)).set ↔ _
  rw [View.set_slice_whole, Rect.mem_set_unit]
  exact Iff.rfl

/-- Every entry of the output lies in the block of the point its row falls to. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the region its output array holds the activation of the two arrays it was entered with. -/
theorem array_eq (c : Dev nD) :
    (dat1 V c).arrAt 2 cfg1.N = act (V c main_v13) (V c main_arg5) :=
  (dat1 V c).arrAt_eq_of_cover 2 (act (V c main_v13) (V c main_arg5)) (fun t _ => flushed_eq V c t) covered

end Cert.Gcn.Act1

end
-- ==== Proof.Proj2Block.lean ====
import proofs.«132294_j70961449665143_1_alg».proof.Proof.Gen.KernelIdeal.Skeleton
import Idealize.ShloMosaic.Lib.ValueIdx
import Idealize.ShloMosaic.Lib.Pipeline.Value
import Idealize.ShloMosaic.PureOps.Ideal.Laws

/-!
The product a grid point computes in the second dense projection, read at one entry of its
block: over the extended reals a change of float format is the identity and the product into a zero
accumulator is the plain sum, so entry (p, q) of the block is the sum over k of x(p, k) · w(k, q).
-/

noncomputable section

namespace Cert.Gcn.Proj2

open Cert.KernelIdeal Cert.KernelIdeal.Gen Idealize.ShloMosaic Idealize.ShloMosaic.TcCoe Idealize.SL.Sem

/-- The left operand's row coordinate is the output's row. -/
theorem lhs_row (i : S2000x10.Idx) (q : dot_S2000x128_S128x10_S2000x10_1_0_0_1_n_n.contr.Idx) :
    (dot_S2000x128_S128x10_S2000x10_1_0_0_1_n_n.lhsIdx i q 0).val = (i 0).val := by
  unfold DotDims.lhsIdx
  rw [dif_neg (show ¬(0 : Fin S2000x128.rank) ∈ dot_S2000x128_S128x10_S2000x10_1_0_0_1_n_n.lhsBatch by decide), dif_pos (show (0 : Fin S2000x128.rank) ∈ dot_S2000x128_S128x10_S2000x10_1_0_0_1_n_n.lhsNonContracting by decide)]
  rfl
/-- The left operand's column coordinate is the contracted index. -/
theorem lhs_col (i : S2000x10.Idx) (q : dot_S2000x128_S128x10_S2000x10_1_0_0_1_n_n.contr.Idx) :
    (dot_S2000x128_S128x10_S2000x10_1_0_0_1_n_n.lhsIdx i q 1).val = (q ⟨0, by decide⟩).val :=
  dot_S2000x128_S128x10_S2000x10_1_0_0_1_n_n.lhsIdx_val_of_single rfl i q
/-- The right operand's row coordinate is the contracted index. -/
theorem rhs_row (i : S2000x10.Idx) (q : dot_S2000x128_S128x10_S2000x10_1_0_0_1_n_n.contr.Idx) :
    (dot_S2000x128_S128x10_S2000x10_1_0_0_1_n_n.rhsIdx i q 0).val = (q ⟨0, by decide⟩).val :=
  dot_S2000x128_S128x10_S2000x10_1_0_0_1_n_n.rhsIdx_val_of_single rfl i q
/-- The right operand's column coordinate is the output's column. -/
theorem rhs_col (i : S2000x10.Idx) (q : dot_S2000x128_S128x10_S2000x10_1_0_0_1_n_n.contr.Idx) :
    (dot_S2000x128_S128x10_S2000x10_1_0_0_1_n_n.rhsIdx i q 1).val = (i 1).val := by
  unfold DotDims.rhsIdx
  rw [dif_neg (show ¬(1 : Fin S128x10.rank) ∈ dot_S2000x128_S128x10_S2000x10_1_0_0_1_n_n.rhsBatch by decide), dif_pos (show (1 : Fin S128x10.rank) ∈ dot_S2000x128_S128x10_S2000x10_1_0_0_1_n_n.rhsNonContracting by decide)]
  rfl

/-- Entry (row of `i`, k) of the left block. -/
abbrev lrow (i : S2000x10.Idx) (k : Fin 128) : S2000x128.Idx := fun a => match a with
  | ⟨0, _⟩ => ⟨(i 0).val, (i 0).isLt⟩
  | ⟨1, _⟩ => ⟨k.val, k.isLt⟩
/-- Entry (k, column of `i`) of the weight matrix. -/
abbrev rcol (i : S2000x10.Idx) (k : Fin 128) : S128x10.Idx := fun a => match a with
  | ⟨0, _⟩ => ⟨k.val, k.isLt⟩
  | ⟨1, _⟩ => ⟨(i 1).val, (i 1).isLt⟩

/-- One entry of the block product: the sum over the contracted index of the row's entries times the
    column's entries. -/
theorem block_apply (x : Vec Ideal S2000x128 .f32) (w : Vec Ideal S128x10 .f32) (i : S2000x10.Idx) :
    k2_pay1 (F := Ideal) x w i = ∑ k : Fin 128, x (lrow i k) * w (rcol i k) := by
  unfold k2_pay1
  simp only [matmul, shapeCast_self]
  rw [Ideal.matmul_constant_zero_apply, ← Equiv.sum_comp (ValueIdx.contrEquiv1 dot_S2000x128_S128x10_S2000x10_1_0_0_1_n_n 128 rfl rfl).symm]
  refine Finset.sum_congr rfl fun k _ => ?_
  have hk := ValueIdx.contrEquiv1_symm_val dot_S2000x128_S128x10_S2000x10_1_0_0_1_n_n 128 rfl rfl k
  have el : dot_S2000x128_S128x10_S2000x10_1_0_0_1_n_n.lhsIdx i ((ValueIdx.contrEquiv1 dot_S2000x128_S128x10_S2000x10_1_0_0_1_n_n 128 rfl rfl).symm k) = lrow i k := funext fun a => Fin.ext (by
    match a with
    | ⟨0, _⟩ => exact lhs_row _ _
    | ⟨1, _⟩ => exact (lhs_col _ _).trans hk)
  have er : dot_S2000x128_S128x10_S2000x10_1_0_0_1_n_n.rhsIdx i ((ValueIdx.contrEquiv1 dot_S2000x128_S128x10_S2000x10_1_0_0_1_n_n 128 rfl rfl).symm k) = rcol i k := funext fun a => Fin.ext (by
    match a with
    | ⟨0, _⟩ => exact (rhs_row _ _).trans hk
    | ⟨1, _⟩ => exact rhs_col _ _)
  rw [el, er]
  rfl

end Cert.Gcn.Proj2

end
-- ==== Proof.Proj2Array.lean ====
import proofs.«132294_j70961449665143_1_alg».proof.Proof.Gen.KernelIdeal.Frame
import proofs.«132294_j70961449665143_1_alg».proof.Proof.Proj2Block

/-!
The second dense projection as one function of its two arrays. Grid point t multiplies rows
2000·t … 2000·t + 1999 of x by the whole weight matrix and writes rows 2000·t … of the output; the fifty row
blocks tile the output, so after the region the output array is x · w at every entry.
-/

set_option maxRecDepth 16384

noncomputable section

namespace Cert.Gcn.Proj2

open Cert.KernelIdeal Cert.KernelIdeal.Gen Idealize.ShloMosaic Idealize.ShloMosaic.TcCoe Idealize.SL.Sem
open Idealize.ShloMosaic.Pipeline (Dat Cfg Window)

/-- Entry (row of `i`, k) of x. -/
abbrev arow (i : S100000x10.Idx) (k : Fin 128) : S100000x128.Idx := fun a => match a with
  | ⟨0, _⟩ => ⟨(i 0).val, (i 0).isLt⟩
  | ⟨1, _⟩ => ⟨k.val, k.isLt⟩
/-- Entry (k, column of `i`) of w. -/
abbrev acol (i : S100000x10.Idx) (k : Fin 128) : S128x10.Idx := fun a => match a with
  | ⟨0, _⟩ => ⟨k.val, k.isLt⟩
  | ⟨1, _⟩ => ⟨(i 1).val, (i 1).isLt⟩

/-- The matrix product x · w over the extended reals, entry by entry. -/
def prod (x : (⟨S100000x128, .f32⟩ : BufTy).Contents (Elt Ideal)) (w : (⟨S128x10, .f32⟩ : BufTy).Contents (Elt Ideal)) :
    (⟨S100000x10, .f32⟩ : BufTy).Contents (Elt Ideal) :=
  fun i => ∑ k : Fin 128, x (arow i k) * w (acol i k)

variable (V : (c : Dev nD) → (b : Ref sig .tc) → Buf (Elt Ideal) ((c : Thread nD τ).loc b))

/-- The two arrays the region reads, at their literal types. -/
abbrev xarr (c : Dev nD) : (⟨S100000x128, .f32⟩ : BufTy).Contents (Elt Ideal) := V c main_v14
abbrev warr (c : Dev nD) : (⟨S128x10, .f32⟩ : BufTy).Contents (Elt Ideal) := V c main_arg6

theorem hz : (![0, 0] : Fin 2 → Nat) = fun _ => 0 := funext fun a => by fin_cases a <;> rfl

/-- The printed index maps over the grid: point t reads row block t of x, the whole of w, and writes row block t. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 49 :=
  (by decide +kernel : ∀ t : Fin grid2.N, _)

/-- Every row block is some point's. -/
theorem idx_onto : ∀ q : Fin 50, ∃ t : Fin cfg2.N, win2_2.index t = ![q.val, 0] :=
  (by decide +kernel : ∀ q : Fin 50, ∃ t : Fin grid2.N, win2_2.index t = ![q.val, 0])

/-- What point t writes back is block t of the product of the arrays the region was entered with. -/
theorem flushed_eq (c : Dev nD) (t : Fin cfg2.N) :
    (dat2 V c).flushed 2 t = ((cfg2.win 2).blk t).view.read (Elt Ideal) (prod (V c main_v14) (V c main_arg6)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x10) hz]
  funext j
  refine (block_apply (iblk2 V c 0 t) (iblk2 V c 1 t) j).trans ?_
  show _ = ∑ k : Fin 128, xarr V c (arow (((cfg2.win 2).blk t).view.emb j) k) * warr V c (acol (((cfg2.win 2).blk t).view.emb j) k)
  refine Finset.sum_congr rfl fun k _ => ?_
  obtain ⟨e0, e1, e2, e3, e4, e5⟩ := idx_facts t
  have hl : ((cfg2.win 0).blk t).view.emb (lrow j k) = arow (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have hr : ((cfg2.win 1).blk t).view.emb (rcol j k) = acol (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 10 + 1 * (j 1).val = win2_2.index t (1 : Fin 2) * 10 + 1 * (j 1).val; omega
  show xarr V c (((cfg2.win 0).blk t).view.emb (lrow j k)) * warr V c (((cfg2.win 1).blk t).view.emb (rcol j k)) = _
  rw [hl, hr]

/-- An index of the output is in point t's block iff each coordinate is in the block's range on its axis. -/
theorem mem_blk (t : Fin cfg2.N) (i : S100000x10.Idx) :
    i ∈ ((cfg2.win 2).blk t).view.set ↔ ∀ a : Fin 2, win2_2.index t a * S2000x10.size a ≤ (i a).val ∧ (i a).val < win2_2.index t a * S2000x10.size a + S2000x10.size a := by
  show i ∈ ((View.whole main_v15).slice (win2_2.rect t)).set ↔ _
  rw [View.set_slice_whole, Rect.mem_set_unit]
  exact Iff.rfl

/-- Every entry of the output lies in the block of the point its row falls to. -/
theorem covered (i : S100000x10.Idx) :
    ∃ t : Fin cfg2.N, (cfg2.win 2).flush t = true ∧ i ∈ ((cfg2.win 2).blk t).view.set := by
  have hi0 : (i 0).val < 100000 := (i 0).isLt
  have hi1 : (i 1).val < 10 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 10 ≤ (i 1).val ∧ (i 1).val < win2_2.index t (1 : Fin 2) * 10 + 10; omega

/-- After the region its output array holds the product of the two arrays it was entered with. -/
theorem array_eq (c : Dev nD) :
    (dat2 V c).arrAt 2 cfg2.N = prod (V c main_v14) (V c main_arg6) :=
  (dat2 V c).arrAt_eq_of_cover 2 (prod (V c main_v14) (V c main_arg6)) (fun t _ => flushed_eq V c t) covered

end Cert.Gcn.Proj2

end
-- ==== Proof.Act2Block.lean ====
import proofs.«132294_j70961449665143_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
The second layer's bias at one entry of a block: the bias vector is laid out as one row, repeated down
the block's rows and added; entry (p, q) is a(p, q) + b(q). The output layer has no rectifier.
-/

noncomputable section

namespace Cert.Gcn.Act2

open Cert.KernelIdeal Cert.KernelIdeal.Gen Idealize.ShloMosaic Idealize.ShloMosaic.TcCoe Idealize.SL.Sem
open Idealize.ShloMosaic.ValueIdx

/-- One entry of the block: the aggregated value plus its column's bias. -/
theorem block_apply (b : Vec Ideal S10 .f32) (a : Vec Ideal S2000x10 .f32) (p : Fin 2000) (q : Fin 10) :
    k3_pay1 (F := Ideal) b a (ix2 p q) = a (ix2 p q) + b (ix1 q) := by
  unfold k3_pay1
  rw [addf_apply, shapeCast_self, broadcastTo_1b_ab_apply, shapeCast_a_1a_apply]

end Cert.Gcn.Act2

end
-- ==== Proof.Act2Array.lean ====
import proofs.«132294_j70961449665143_1_alg».proof.Proof.Gen.KernelIdeal.Frame
import proofs.«132294_j70961449665143_1_alg».proof.Proof.Act2Block

/-!
The second layer's bias as one function of the aggregated array and the bias vector. Grid point t takes
rows 2000·t … 2000·t + 1999 of the aggregated array, adds the bias to every row and writes the same rows of
the output; the fifty row blocks tile the output. These are the network's logits: no rectifier follows.
-/

set_option maxRecDepth 16384

noncomputable section

namespace Cert.Gcn.Act2

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The bias entry of an output entry's column. -/
abbrev bcol (i : S100000x10.Idx) : S10.Idx := fun d => match d with
  | ⟨0, _⟩ => ⟨(i 1).val, (i 1).isLt⟩

/-- Bias added along the rows, entry by entry. -/
def addBias (a : (⟨S100000x10, .f32⟩ : BufTy).Contents (Elt Ideal)) (b : (⟨S10, .f32⟩ : BufTy).Contents (Elt Ideal)) :
    (⟨S100000x10, .f32⟩ : BufTy).Contents (Elt Ideal) :=
  fun i => a i + b (bcol i)

variable (V : (c : Dev nD) → (b : Ref sig .tc) → Buf (Elt Ideal) ((c : Thread nD τ).loc b))

/-- The two arrays the region reads, at their literal types. -/
abbrev aarr (c : Dev nD) : (⟨S100000x10, .f32⟩ : BufTy).Contents (Elt Ideal) := V c main_v28
abbrev barr (c : Dev nD) : (⟨S10, .f32⟩ : BufTy).Contents (Elt Ideal) := V c main_arg7

theorem hz2 : (![0, 0] : Fin 2 → Nat) = fun _ => 0 := funext fun a => by fin_cases a <;> rfl
theorem hz1 : (![0] : Fin 1 → Nat) = fun _ => 0 := funext fun a => by fin_cases a; rfl

/-- The printed index maps over the grid: point t reads row block t of the aggregated array, the whole bias
    vector, and writes row block t. -/
theorem idx_facts : ∀ t : Fin cfg3.N, win3_0.index t (0 : Fin 2) = win3_2.index t (0 : Fin 2)
    ∧ win3_0.index t (1 : Fin 2) = 0
    ∧ win3_1.index t (0 : Fin 1) = 0
    ∧ win3_2.index t (1 : Fin 2) = 0
    ∧ win3_2.index t (0 : Fin 2) ≤ 49 :=
  (by decide +kernel : ∀ t : Fin grid3.N, _)

/-- Every row block is some point's. -/
theorem idx_onto : ∀ q : Fin 50, ∃ t : Fin cfg3.N, win3_2.index t = ![q.val, 0] :=
  (by decide +kernel : ∀ q : Fin 50, ∃ t : Fin grid3.N, win3_2.index t = ![q.val, 0])

/-- What point t writes back is block t of the biased sum of the arrays the region was entered with. -/
theorem flushed_eq (c : Dev nD) (t : Fin cfg3.N) :
    (dat3 V c).flushed 2 t = ((cfg3.win 2).blk t).view.read (Elt Ideal) (addBias (V c main_v28) (V c main_arg7)) := by
  show (cfg3.win 2).cut (grid3.coords t) ((dat3 V c).after 2 t) = _
  rw [after3_2]
  unfold out3_2
  rw [View.canon_unit_zero hz2]
  simp only [View.ld_unit_zero (S := S2000x10) hz2, View.ld_unit_zero (S := S10) hz1]
  funext j
  obtain ⟨p, q, rfl⟩ : ∃ (p : Fin 2000) (q : Fin 10), j = ix2 p q := ⟨j 0, j 1, eq_ix2 j⟩
  refine (block_apply (iblk3 V c 1 t) (iblk3 V c 0 t) p q).trans ?_
  obtain ⟨e0, e1, e2, e3, e4⟩ := idx_facts t
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 10 + 1 * q.val = win3_2.index t (1 : Fin 2) * 10 + 1 * q.val; omega
  have h1 : ((cfg3.win 1).blk t).view.emb (ix1 q) = bcol (((cfg3.win 2).blk t).view.emb (ix2 p q)) := by
    funext a; apply Fin.ext
    match a with
    | ⟨0, _⟩ => show win3_1.index t (0 : Fin 1) * 10 + 1 * q.val = win3_2.index t (1 : Fin 2) * 10 + 1 * q.val; omega
  show aarr V c (((cfg3.win 0).blk t).view.emb (ix2 p q)) + barr V c (((cfg3.win 1).blk t).view.emb (ix1 q))
     = aarr V c (((cfg3.win 2).blk t).view.emb (ix2 p q)) + barr V c (bcol (((cfg3.win 2).blk t).view.emb (ix2 p q)))
  rw [h0, h1]

/-- An index of the output is in point t's block iff each coordinate is in the block's range on its axis. -/
theorem mem_blk (t : Fin cfg3.N) (i : S100000x10.Idx) :
    i ∈ ((cfg3.win 2).blk t).view.set ↔ ∀ a : Fin 2, win3_2.index t a * S2000x10.size a ≤ (i a).val ∧ (i a).val < win3_2.index t a * S2000x10.size a + S2000x10.size a := by
  show i ∈ ((View.whole main_v29).slice (win3_2.rect t)).set ↔ _
  rw [View.set_slice_whole, Rect.mem_set_unit]
  exact Iff.rfl

/-- Every entry of the output lies in the block of the point its row falls to. -/
theorem covered (i : S100000x10.Idx) :
    ∃ t : Fin cfg3.N, (cfg3.win 2).flush t = true ∧ i ∈ ((cfg3.win 2).blk t).view.set := by
  have hi0 : (i 0).val < 100000 := (i 0).isLt
  have hi1 : (i 1).val < 10 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 10 ≤ (i 1).val ∧ (i 1).val < win3_2.index t (1 : Fin 2) * 10 + 10; omega

/-- After the region its output array holds the biased sum of the two arrays it was entered with. -/
theorem array_eq (c : Dev nD) :
    (dat3 V c).arrAt 2 cfg3.N = addBias (V c main_v28) (V c main_arg7) :=
  (dat3 V c).arrAt_eq_of_cover 2 (addBias (V c main_v28) (V c main_arg7)) (fun t _ => flushed_eq V c t) covered

end Cert.Gcn.Act2

end
-- ==== Proof.Aggregate.lean ====
import proofs.«132294_j70961449665143_1_alg».proof.Proof.Gen.KernelIdeal.Launch
import Idealize.ShloMosaic.Lib.StableHlo.Run

/-!
The two stretches of host operations between the kernel regions, each as one function of the buffers it
reads. A stretch gathers the rows of the projected features named by the edges' source nodes (a negative
source index is first shifted up by the number of nodes), scales each gathered row by its edge's weight, and
adds the scaled rows into a zero array at the rows named by the edges' destination nodes.
-/

noncomputable section

namespace Cert.Gcn.Aggregate

open Cert.KernelIdeal Cert.KernelIdeal.Gen Idealize.ShloMosaic Idealize.ShloMosaic.TcCoe Idealize.SL.Sem Idealize.ShloMosaic.StableHlo

variable {F : FTy → Type} [FloatOps F]

/-- The source indices as the gather takes them: a negative index shifted up by the number of nodes, one index per row. -/
def srcIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The first layer's aggregation over 128 features, in the kernel program's order of the product's factors. -/
def agg128 (sup : (⟨S100000x128, .f32⟩ : BufTy).Contents (Elt F)) (src dst : (⟨S1600000, .i32⟩ : BufTy).Contents (Elt F))
    (ew : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 sup (srcIdx src))
      (broadcastInDim S1600000x128 ![0, 1] bcast_S1600000x1_S1600000x128_0_1 (broadcastInDim S1600000x1 ![0] bcast_S1600000_S1600000x1_0 ew)))

/-- The second layer's aggregation over 10 features. -/
def agg10 (sup : (⟨S100000x10, .f32⟩ : BufTy).Contents (Elt F)) (src dst : (⟨S1600000, .i32⟩ : BufTy).Contents (Elt F))
    (ew : (⟨S1600000, .f32⟩ : BufTy).Contents (Elt F)) : (⟨S100000x10, .f32⟩ : BufTy).Contents (Elt F) :=
  Host.scatterAdd scatter_S100000x10_S1600000x1_S1600000x10_1_0_0_1
    (broadcastInDim S100000x10 ![] bcast_S_S100000x10 (constant S_ .f32 0x00000000#32))
    (broadcastInDim S1600000x1 ![0] bcast_S1600000_S1600000x1_0 dst)
    (mulf (Host.gather gather_S100000x10_S1600000x1_S1600000x10_1_0_n_n_0_1_110 sup (srcIdx src))
      (broadcastInDim S1600000x10 ![0, 1] bcast_S1600000x1_S1600000x10_0_1 (broadcastInDim S1600000x1 ![0] bcast_S1600000_S1600000x1_0 ew)))

/-- After the first stretch the aggregated buffer holds the aggregation of what the stretch found in the projected
    features, the two index arrays and the weights. -/
theorem stretch1 (W : Valuation τ sig (Elt F)) :
    StableHlo.after hostOps1 W (Proc.devRef .tc main_v13)
      = agg128 (W (Proc.devRef .tc main_v0)) (W (Proc.devRef .tc main_arg1)) (W (Proc.devRef .tc main_arg2)) (W (Proc.devRef .tc main_arg3)) := by
  unfold agg128 srcIdx
  after_results

/-- The same for the second stretch. -/
theorem stretch3 (W : Valuation τ sig (Elt F)) :
    StableHlo.after hostOps3 W (Proc.devRef .tc main_v28)
      = agg10 (W (Proc.devRef .tc main_v15)) (W (Proc.devRef .tc main_arg1)) (W (Proc.devRef .tc main_arg2)) (W (Proc.devRef .tc main_arg3)) := by
  unfold agg10 srcIdx
  after_results

/-! No host operation writes an argument array: after a stretch each one the later regions read is as the stretch found it. -/

theorem stretch1_main_arg1 (W : Valuation τ sig (Elt F)) :
    StableHlo.after hostOps1 W (Proc.devRef .tc main_arg1) = W (Proc.devRef .tc main_arg1) := by
  after_results
theorem stretch1_main_arg2 (W : Valuation τ sig (Elt F)) :
    StableHlo.after hostOps1 W (Proc.devRef .tc main_arg2) = W (Proc.devRef .tc main_arg2) := by
  after_results
theorem stretch1_main_arg3 (W : Valuation τ sig (Elt F)) :
    StableHlo.after hostOps1 W (Proc.devRef .tc main_arg3) = W (Proc.devRef .tc main_arg3) := by
  after_results
theorem stretch1_main_arg5 (W : Valuation τ sig (Elt F)) :
    StableHlo.after hostOps1 W (Proc.devRef .tc main_arg5) = W (Proc.devRef .tc main_arg5) := by
  after_results
theorem stretch1_main_arg6 (W : Valuation τ sig (Elt F)) :
    StableHlo.after hostOps1 W (Proc.devRef .tc main_arg6) = W (Proc.devRef .tc main_arg6) := by
  after_results
theorem stretch1_main_arg7 (W : Valuation τ sig (Elt F)) :
    StableHlo.after hostOps1 W (Proc.devRef .tc main_arg7) = W (Proc.devRef .tc main_arg7) := by
  after_results
theorem stretch3_main_arg7 (W : Valuation τ sig (Elt F)) :
    StableHlo.after hostOps3 W (Proc.devRef .tc main_arg7) = W (Proc.devRef .tc main_arg7) := by
  after_results

end Cert.Gcn.Aggregate

end
-- ==== Proof.KernelValue.lean ====
import proofs.«132294_j70961449665143_1_alg».proof.Proof.Gen.KernelIdeal.Frame
import proofs.«132294_j70961449665143_1_alg».proof.Proof.Proj1Array
import proofs.«132294_j70961449665143_1_alg».proof.Proof.Act1Array
import proofs.«132294_j70961449665143_1_alg».proof.Proof.Proj2Array
import proofs.«132294_j70961449665143_1_alg».proof.Proof.Act2Array
import proofs.«132294_j70961449665143_1_alg».proof.Proof.Aggregate

/-!
What the kernel program leaves in its result buffer, as one function of the eight argument arrays.
The buffer contents at the boundaries between @main's segments are walked back from the return to the
launch: each region's output array is its whole-array function of the arrays the region was entered with,
each stretch of host operations is the aggregation of what it found, and no segment writes an argument
array. Composed: project, aggregate, add bias and rectify, project, aggregate, add bias.
-/

set_option maxRecDepth 16384

noncomputable section

namespace Cert.Gcn.Kernel

open Cert.KernelIdeal Cert.KernelIdeal.Gen Idealize.ShloMosaic Idealize.ShloMosaic.TcCoe Idealize.SL.Sem
open Cert.Gcn

variable (m : (ℓ : Loc nD τ sig) → Buf (Elt Ideal) ℓ) (ρ : Dev nD → PrngReg)

/-! ## The values along the network, from the launch memory -/

/-- The projected features of the first layer. -/
def support1 (c : Dev nD) : (⟨S100000x128, .f32⟩ : BufTy).Contents (Elt Ideal) :=
  Proj1.prod (m ((c : Thread nD τ).loc main_arg0)) (m ((c : Thread nD τ).loc main_arg4))
/-- Aggregated over the edges. -/
def agg1 (c : Dev nD) : (⟨S100000x128, .f32⟩ : BufTy).Contents (Elt Ideal) :=
  Aggregate.agg128 (support1 m c) (m ((c : Thread nD τ).loc main_arg1)) (m ((c : Thread nD τ).loc main_arg2)) (m ((c : Thread nD τ).loc main_arg3))
/-- The hidden activations. -/
def hidden (c : Dev nD) : (⟨S100000x128, .f32⟩ : BufTy).Contents (Elt Ideal) :=
  Act1.act (agg1 m c) (m ((c : Thread nD τ).loc main_arg5))
/-- The projected features of the second layer. -/
def support2 (c : Dev nD) : (⟨S100000x10, .f32⟩ : BufTy).Contents (Elt Ideal) :=
  Proj2.prod (hidden m c) (m ((c : Thread nD τ).loc main_arg6))
/-- Aggregated over the edges. -/
def agg2 (c : Dev nD) : (⟨S100000x10, .f32⟩ : BufTy).Contents (Elt Ideal) :=
  Aggregate.agg10 (support2 m c) (m ((c : Thread nD τ).loc main_arg1)) (m ((c : Thread nD τ).loc main_arg2)) (m ((c : Thread nD τ).loc main_arg3))
/-- The logits. -/
def logits (c : Dev nD) : (⟨S100000x10, .f32⟩ : BufTy).Contents (Elt Ideal) :=
  Act2.addBias (agg2 m c) (m ((c : Thread nD τ).loc main_arg7))

/-! ## The argument arrays at the boundaries where a later segment reads them -/

/-- The first region writes no array but its output: any other buffer is as launched. -/
theorem W1_kept (c : Dev nD) (b : Ref sig .tc) (hb : ∀ w, Pipeline.arrRef spec0 w ≠ b) :
    W1 m ρ c (Proc.devRef .tc b) = m ((c : Thread nD τ).loc b) := W1_of_ne m ρ c b hb

theorem W2_arg1 (c : Dev nD) : W2 m ρ c (Proc.devRef .tc main_arg1) = m ((c : Thread nD τ).loc main_arg1) :=
  (Aggregate.stretch1_main_arg1 (W1 m ρ c)).trans (W1_kept m ρ c main_arg1 (by decide))
theorem W2_arg2 (c : Dev nD) : W2 m ρ c (Proc.devRef .tc main_arg2) = m ((c : Thread nD τ).loc main_arg2) :=
  (Aggregate.stretch1_main_arg2 (W1 m ρ c)).trans (W1_kept m ρ c main_arg2 (by decide))
theorem W2_arg3 (c : Dev nD) : W2 m ρ c (Proc.devRef .tc main_arg3) = m ((c : Thread nD τ).loc main_arg3) :=
  (Aggregate.stretch1_main_arg3 (W1 m ρ c)).trans (W1_kept m ρ c main_arg3 (by decide))
theorem W2_arg5 (c : Dev nD) : W2 m ρ c (Proc.devRef .tc main_arg5) = m ((c : Thread nD τ).loc main_arg5) :=
  (Aggregate.stretch1_main_arg5 (W1 m ρ c)).trans (W1_kept m ρ c main_arg5 (by decide))
theorem W2_arg6 (c : Dev nD) : W2 m ρ c (Proc.devRef .tc main_arg6) = m ((c : Thread nD τ).loc main_arg6) :=
  (Aggregate.stretch1_main_arg6 (W1 m ρ c)).trans (W1_kept m ρ c main_arg6 (by decide))
theorem W2_arg7 (c : Dev nD) : W2 m ρ c (Proc.devRef .tc main_arg7) = m ((c : Thread nD τ).loc main_arg7) :=
  (Aggregate.stretch1_main_arg7 (W1 m ρ c)).trans (W1_kept m ρ c main_arg7 (by decide))

theorem W3_arg1 (c : Dev nD) : W3 m ρ c (Proc.devRef .tc main_arg1) = m ((c : Thread nD τ).loc main_arg1) :=
  (W3_of_ne m ρ c main_arg1 (by decide)).trans (W2_arg1 m ρ c)
theorem W3_arg2 (c : Dev nD) : W3 m ρ c (Proc.devRef .tc main_arg2) = m ((c : Thread nD τ).loc main_arg2) :=
  (W3_of_ne m ρ c main_arg2 (by decide)).trans (W2_arg2 m ρ c)
theorem W3_arg3 (c : Dev nD) : W3 m ρ c (Proc.devRef .tc main_arg3) = m ((c : Thread nD τ).loc main_arg3) :=
  (W3_of_ne m ρ c main_arg3 (by decide)).trans (W2_arg3 m ρ c)
theorem W3_arg6 (c : Dev nD) : W3 m ρ c (Proc.devRef .tc main_arg6) = m ((c : Thread nD τ).loc main_arg6) :=
  (W3_of_ne m ρ c main_arg6 (by decide)).trans (W2_arg6 m ρ c)
theorem W3_arg7 (c : Dev nD) : W3 m ρ c (Proc.devRef .tc main_arg7) = m ((c : Thread nD τ).loc main_arg7) :=
  (W3_of_ne m ρ c main_arg7 (by decide)).trans (W2_arg7 m ρ c)

theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg7 (c : Dev nD) : W4 m ρ c (Proc.devRef .tc main_arg7) = m ((c : Thread nD τ).loc main_arg7) :=
  (W4_of_ne m ρ c main_arg7 (by decide)).trans (W3_arg7 m ρ c)

theorem W5_arg7 (c : Dev nD) : W5 m ρ c (Proc.devRef .tc main_arg7) = m ((c : Thread nD τ).loc main_arg7) :=
  (Aggregate.stretch3_main_arg7 (W4 m ρ c)).trans (W4_arg7 m ρ c)

/-! ## Each segment's output at its boundary -/

/-- After the first region the projected features' buffer holds x · W1. -/
theorem W1_support (c : Dev nD) : W1 m ρ c (Proc.devRef .tc main_v0) = support1 m c :=
  (W1_arr m ρ c 2).trans (Proj1.array_eq (V0 m ρ) c)

/-- After the first stretch the aggregated buffer holds the first layer's aggregation. -/
theorem W2_agg (c : Dev nD) : W2 m ρ c (Proc.devRef .tc main_v13) = agg1 m c :=
  (Aggregate.stretch1 (W1 m ρ c)).trans
    (by rw [W1_support m ρ c, W1_kept m ρ c main_arg1 (by decide), W1_kept m ρ c main_arg2 (by decide), W1_kept m ρ c main_arg3 (by decide)]; rfl)

/-- After the second region its output holds the hidden activations. -/
theorem W3_hidden (c : Dev nD) : W3 m ρ c (Proc.devRef .tc main_v14) = hidden m c :=
  (W3_arr m ρ c 2).trans ((Act1.array_eq (V2 m ρ) c).trans (congrArg₂ Act1.act (W2_agg m ρ c) (W2_arg5 m ρ c)))

/-- After the third region its output holds the second layer's projected features. -/
theorem W4_support (c : Dev nD) : W4 m ρ c (Proc.devRef .tc main_v15) = support2 m c :=
  (W4_arr m ρ c 2).trans ((Proj2.array_eq (V3 m ρ) c).trans (congrArg₂ Proj2.prod (W3_hidden m ρ c) (W3_arg6 m ρ c)))

/-- After the second stretch the aggregated buffer holds the second layer's aggregation. -/
theorem W5_agg (c : Dev nD) : W5 m ρ c (Proc.devRef .tc main_v28) = agg2 m c :=
  (Aggregate.stretch3 (W4 m ρ c)).trans
    (by rw [W4_support m ρ c, W4_arg1 m ρ c, W4_arg2 m ρ c, W4_arg3 m ρ c]; rfl)

/-- At the return the result buffer holds the logits. -/
theorem W6_logits (c : Dev nD) : W6 m ρ c (Proc.devRef .tc main_v29) = logits m c :=
  (W6_arr m ρ c 2).trans ((Act2.array_eq (V5 m ρ) c).trans (congrArg₂ Act2.addBias (W5_agg m ρ c) (W5_arg7 m ρ c)))

end Cert.Gcn.Kernel

end
-- ==== Proof.RefValue.lean ====
import proofs.«132294_j70961449665143_1_alg».proof.Proof.Gen.ReferenceIdeal.Run
import proofs.«132294_j70961449665143_1_alg».proof.Proof.Gen.ReferenceIdeal.Read
import proofs.«132294_j70961449665143_1_alg».proof.Proof.Proj1Array
import proofs.«132294_j70961449665143_1_alg».proof.Proof.Act1Array
import proofs.«132294_j70961449665143_1_alg».proof.Proof.Proj2Array
import proofs.«132294_j70961449665143_1_alg».proof.Proof.Act2Array
import proofs.«132294_j70961449665143_1_alg».proof.Proof.Aggregate

/-!
The reference program's result as the same composition the kernel program computes. Over the extended
reals the host's matrix product is the plain sum over the contracted index, which is the kernel's product
block by block; the reference scales a gathered row by writing the weight first and the row second, and
multiplication of extended reals commutes; the bias is broadcast in two steps to the same entry of the bias
vector; the rectifier is the maximum with the zero word on both sides. The gather and the scatter-add are the
same operations on both sides and are never opened.
-/

set_option maxRecDepth 16384

noncomputable section

namespace Cert.Gcn.Reference

open Cert.ReferenceIdeal Cert.ReferenceIdeal.Gen Idealize.ShloMosaic Idealize.ShloMosaic.TcCoe Idealize.SL.Sem
open Cert.Gcn

/-- The host's first matrix product is the product x · W1 entry by entry. -/
theorem proj1_eq (x : FVec Ideal S100000x512 .f32) (w : FVec Ideal S512x128 .f32) :
    Host.dotGeneral (F := Ideal) dot_S100000x512_S512x128_S100000x128_1_0_0_1_n_n none x w = Proj1.prod x w := by
  funext i
  simp only [Host.dotGeneral]
  rw [Ideal.dotGeneral_apply, ← Equiv.sum_comp (ValueIdx.contrEquiv1 dot_S100000x512_S512x128_S100000x128_1_0_0_1_n_n 512 rfl rfl).symm]
  show _ = ∑ k : Fin 512, x (Proj1.arow i k) * w (Proj1.acol i k)
  refine Finset.sum_congr rfl fun k _ => ?_
  have hk := ValueIdx.contrEquiv1_symm_val dot_S100000x512_S512x128_S100000x128_1_0_0_1_n_n 512 rfl rfl k
  have el : dot_S100000x512_S512x128_S100000x128_1_0_0_1_n_n.lhsIdx i ((ValueIdx.contrEquiv1 dot_S100000x512_S512x128_S100000x128_1_0_0_1_n_n 512 rfl rfl).symm k) = Proj1.arow i k := funext fun a => Fin.ext (by
    match a with
    | ⟨0, _⟩ => exact Read.lhs_main_v0_0 _ _
    | ⟨1, _⟩ => exact (Read.lhs_main_v0_1 _ _).trans hk)
  have er : dot_S100000x512_S512x128_S100000x128_1_0_0_1_n_n.rhsIdx i ((ValueIdx.contrEquiv1 dot_S100000x512_S512x128_S100000x128_1_0_0_1_n_n 512 rfl rfl).symm k) = Proj1.acol i k := funext fun a => Fin.ext (by
    match a with
    | ⟨0, _⟩ => exact (Read.rhs_main_v0_0 _ _).trans hk
    | ⟨1, _⟩ => exact Read.rhs_main_v0_1 _ _)
  rw [el, er]

/-- The host's second matrix product is the product h · W2 entry by entry. -/
theorem proj2_eq (x : FVec Ideal S100000x128 .f32) (w : FVec Ideal S128x10 .f32) :
    Host.dotGeneral (F := Ideal) dot_S100000x128_S128x10_S100000x10_1_0_0_1_n_n none x w = Proj2.prod x w := by
  funext i
  simp only [Host.dotGeneral]
  rw [Ideal.dotGeneral_apply, ← Equiv.sum_comp (ValueIdx.contrEquiv1 dot_S100000x128_S128x10_S100000x10_1_0_0_1_n_n 128 rfl rfl).symm]
  show _ = ∑ k : Fin 128, x (Proj2.arow i k) * w (Proj2.acol i k)
  refine Finset.sum_congr rfl fun k _ => ?_
  have hk := ValueIdx.contrEquiv1_symm_val dot_S100000x128_S128x10_S100000x10_1_0_0_1_n_n 128 rfl rfl k
  have el : dot_S100000x128_S128x10_S100000x10_1_0_0_1_n_n.lhsIdx i ((ValueIdx.contrEquiv1 dot_S100000x128_S128x10_S100000x10_1_0_0_1_n_n 128 rfl rfl).symm k) = Proj2.arow i k := funext fun a => Fin.ext (by
    match a with
    | ⟨0, _⟩ => exact Read.lhs_main_v18_0 _ _
    | ⟨1, _⟩ => exact (Read.lhs_main_v18_1 _ _).trans hk)
  have er : dot_S100000x128_S128x10_S100000x10_1_0_0_1_n_n.rhsIdx i ((ValueIdx.contrEquiv1 dot_S100000x128_S128x10_S100000x10_1_0_0_1_n_n 128 rfl rfl).symm k) = Proj2.acol i k := funext fun a => Fin.ext (by
    match a with
    | ⟨0, _⟩ => exact (Read.rhs_main_v18_0 _ _).trans hk
    | ⟨1, _⟩ => exact Read.rhs_main_v18_1 _ _)
  rw [el, er]

/-- An entrywise product of extended reals does not depend on the order of its factors. -/
theorem mulf_swap {s : Shape} (a b : FVec Ideal s .f32) : mulf a b = mulf b a := by
  funext i
  rw [ValueIdx.mulf_apply, ValueIdx.mulf_apply, mul_comm]

/-- The reference's first aggregation is the kernel program's: the same gather and scatter-add, the product's
    factors in the other order. -/
theorem agg128_eq (sup : FVec Ideal S100000x128 .f32) (src dst : IVec S1600000 32) (ew : FVec Ideal S1600000 .f32) :
    Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (mulf (F := Ideal) (broadcastInDim S1600000x128 ![0, 1] bcast_S1600000x1_S1600000x128_0_1 (broadcastInDim S1600000x1 ![0] bcast_S1600000_S1600000x1_0 ew)) (Host.gather gather_S100000x128_S1600000x1_S1600000x128_1_0_n_n_0_1_1128 sup (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))
      = Aggregate.agg128 (F := Ideal) sup src dst ew := by
  rw [mulf_swap]
  rfl

/-- The same for the second aggregation. -/
theorem agg10_eq (sup : FVec Ideal S100000x10 .f32) (src dst : IVec S1600000 32) (ew : FVec Ideal S1600000 .f32) :
    Host.scatterAdd (F := Ideal) scatter_S100000x10_S1600000x1_S1600000x10_1_0_0_1 (broadcastInDim S100000x10 ![] bcast_S_S100000x10 (constant (F := Ideal) S_ .f32 0x00000000#32)) (broadcastInDim S1600000x1 ![0] bcast_S1600000_S1600000x1_0 dst) (mulf (F := Ideal) (broadcastInDim S1600000x10 ![0, 1] bcast_S1600000x1_S1600000x10_0_1 (broadcastInDim S1600000x1 ![0] bcast_S1600000_S1600000x1_0 ew)) (Host.gather gather_S100000x10_S1600000x1_S1600000x10_1_0_n_n_0_1_110 sup (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))
      = Aggregate.agg10 (F := Ideal) sup src dst ew := by
  rw [mulf_swap]
  rfl

/-- The reference's bias and rectifier of the first layer, entry by entry. -/
theorem act1_eq (a : FVec Ideal S100000x128 .f32) (b : FVec Ideal S128 .f32) :
    maximumf (F := Ideal) (addf (F := Ideal) a (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))
      = Act1.act a b := by
  funext i
  have hb : broadcastInDim S100000x128 ![0, 1] bcast_S1x128_S100000x128_0_1 (broadcastInDim S1x128 ![1] bcast_S128_S1x128_1 b) i = b (Act1.bcol i) :=
    ((Read.val_main_v15_apply (F := Ideal) b i).trans (Read.val_main_v14_apply (F := Ideal) b _)).trans
      (congrArg b (funext fun d => Fin.ext (by match d with | ⟨0, _⟩ => rfl)))
  have hzero : broadcastInDim S100000x128 ![] bcast_S_S100000x128 (constant (F := Ideal) S_ .f32 0x00000000#32) i = Ideal.ofBits .f32 0x00000000#32 :=
    (Read.val_main_call0_v0_apply (F := Ideal) i).trans (Read.val_main_call0_cst_apply (F := Ideal) _)
  rw [ValueIdx.maximumf_apply, ValueIdx.addf_apply, hb, hzero]
  rfl

/-- The reference's bias of the second layer, entry by entry. -/
theorem addBias_eq (a : FVec Ideal S100000x10 .f32) (b : FVec Ideal S10 .f32) :
    addf (F := Ideal) a (broadcastInDim S100000x10 ![0, 1] bcast_S1x10_S100000x10_0_1 (broadcastInDim S1x10 ![1] bcast_S10_S1x10_1 b))
      = Act2.addBias a b := by
  funext i
  have hb : broadcastInDim S100000x10 ![0, 1] bcast_S1x10_S100000x10_0_1 (broadcastInDim S1x10 ![1] bcast_S10_S1x10_1 b) i = b (Act2.bcol i) :=
    ((Read.val_main_v33_apply (F := Ideal) b i).trans (Read.val_main_v32_apply (F := Ideal) b _)).trans
      (congrArg b (funext fun d => Fin.ext (by match d with | ⟨0, _⟩ => rfl)))
  rw [ValueIdx.addf_apply, hb]
  rfl

/-- The reference run's result term is the composition: project, aggregate, add bias and rectify, project,
    aggregate, add bias. -/
theorem result_eq (x0 : FVec Ideal S100000x512 .f32) (x1 x2 : IVec S1600000 32) (x3 : FVec Ideal S1600000 .f32)
    (x4 : FVec Ideal S512x128 .f32) (x5 : FVec Ideal S128 .f32) (x6 : FVec Ideal S128x10 .f32) (x7 : FVec Ideal S10 .f32) :
    addf (F := Ideal) (Host.scatterAdd (F := Ideal) scatter_S100000x10_S1600000x1_S1600000x10_1_0_0_1 (broadcastInDim S100000x10 ![] bcast_S_S100000x10 (constant (F := Ideal) S_ .f32 0x00000000#32)) (broadcastInDim S1600000x1 ![0] bcast_S1600000_S1600000x1_0 x2) (mulf (F := Ideal) (broadcastInDim S1600000x10 ![0, 1] bcast_S1600000x1_S1600000x10_0_1 (broadcastInDim S1600000x1 ![0] bcast_S1600000_S1600000x1_0 x3)) (Host.gather gather_S100000x10_S1600000x1_S1600000x10_1_0_n_n_0_1_110 (Host.dotGeneral (F := Ideal) dot_S100000x128_S128x10_S100000x10_1_0_0_1_n_n none (maximumf (F := Ideal) (addf (F := Ideal) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 x2) (mulf (F := Ideal) (broadcastInDim S1600000x128 ![0, 1] bcast_S1600000x1_S1600000x128_0_1 (broadcastInDim S1600000x1 ![0] bcast_S1600000_S1600000x1_0 x3)) (Host.gather gather_S100000x128_S1600000x1_S1600000x128_1_0_n_n_0_1_1128 (Host.dotGeneral (F := Ideal) dot_S100000x512_S512x128_S100000x128_1_0_0_1_n_n none x0 x4) (broadcastInDim S1600000x1 ![0] bcast_S1600000_S1600000x1_0 (select (cmpi .slt x1 (broadcastInDim S1600000 ![] bcast_S_S1600000 (constantI S_ 32 0#32))) (addi x1 (broadcastInDim S1600000 ![] bcast_S_S1600000 (constantI S_ 32 100000#32))) x1))))) (broadcastInDim S100000x128 ![0, 1] bcast_S1x128_S100000x128_0_1 (broadcastInDim S1x128 ![1] bcast_S128_S1x128_1 x5))) (broadcastInDim S100000x128 ![] bcast_S_S100000x128 (constant (F := Ideal) S_ .f32 0x00000000#32))) x6) (broadcastInDim S1600000x1 ![0] bcast_S1600000_S1600000x1_0 (select (cmpi .slt x1 (broadcastInDim S1600000 ![] bcast_S_S1600000 (constantI S_ 32 0#32))) (addi x1 (broadcastInDim S1600000 ![] bcast_S_S1600000 (constantI S_ 32 100000#32))) x1))))) (broadcastInDim S100000x10 ![0, 1] bcast_S1x10_S100000x10_0_1 (broadcastInDim S1x10 ![1] bcast_S10_S1x10_1 x7))
      = Act2.addBias (Aggregate.agg10 (F := Ideal) (Proj2.prod (Act1.act (Aggregate.agg128 (F := Ideal) (Proj1.prod x0 x4) x1 x2 x3) x5) x6) x1 x2 x3) x7 := by
  rw [proj1_eq, agg128_eq, act1_eq, proj2_eq, agg10_eq, addBias_eq]

end Cert.Gcn.Reference

end
-- ==== Proof.lean ====
/-
  A two-layer graph convolution: out = Â·relu(Â·(x·W1) + b1)·W2 + b2 with Â the weighted edge aggregation
  (gather the source rows, scale by the edge weights, add into the destination rows). The kernel program runs
  the two dense projections and the two bias steps as four tiled kernels (fifty row blocks of 2000 rows each)
  and leaves the aggregation on the host; the reference runs everything on the host.

  Over the extended reals both compute the same composition of six whole-array functions:
  * a projection block's product into a zero accumulator (its operands' change of float format being the
    identity) is the plain sum over the contracted index, and the fifty row blocks tile the output, so a
    projection region leaves x · W in its output array — what the host's matrix product is entry by entry;
  * a bias region leaves a + b (and the maximum with zero in the first layer) at every entry, which is the
    reference's two-step broadcast of the bias and its rectifier;
  * the aggregation is the same gather and the same scatter-add on both sides and is never opened; the only
    difference is the order of the two factors of the edge scaling, and multiplication commutes.
  No law used needs finiteness, so the precondition is never opened. The ideal pass rewrote nothing, so
  the kernel's idealization is its own text.
-/
import proofs.«132294_j70961449665143_1_alg».proof.Defs
import proofs.«132294_j70961449665143_1_alg».proof.Proof.Gen.Kernel
import proofs.«132294_j70961449665143_1_alg».proof.Proof.Gen.Kernel.Skeleton
import proofs.«132294_j70961449665143_1_alg».proof.Proof.Gen.Kernel.Launch
import proofs.«132294_j70961449665143_1_alg».proof.Proof.Gen.Kernel.Points
import proofs.«132294_j70961449665143_1_alg».proof.Proof.Gen.Kernel.Frame
import proofs.«132294_j70961449665143_1_alg».proof.Proof.Gen.KernelIdeal
import proofs.«132294_j70961449665143_1_alg».proof.Proof.Gen.KernelIdeal.Skeleton
import proofs.«132294_j70961449665143_1_alg».proof.Proof.Gen.KernelIdeal.Launch
import proofs.«132294_j70961449665143_1_alg».proof.Proof.Gen.KernelIdeal.Points
import proofs.«132294_j70961449665143_1_alg».proof.Proof.Gen.KernelIdeal.Frame
import proofs.«132294_j70961449665143_1_alg».proof.Proof.Gen.ReferenceIdeal
import proofs.«132294_j70961449665143_1_alg».proof.Proof.Gen.ReferenceIdeal.Run
import proofs.«132294_j70961449665143_1_alg».proof.Proof.Gen.Pre_finite_inputs
import proofs.«132294_j70961449665143_1_alg».proof.Proof.NamedRun
import proofs.«132294_j70961449665143_1_alg».proof.Proof.KernelValue
import proofs.«132294_j70961449665143_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the logits of the kernel program's
    launch memory in their result buffers. -/
theorem algebraic : Cert.algebraic_KernelIdeal_ReferenceIdeal := by
  intro m ρ m' ρ' _ hagree
  refine ⟨fun c => Cert.Gcn.Kernel.logits m c, ?_, ?_⟩
  · exact (θ_run Cert.KernelIdeal.defs _ _).mono
      (fun r h c => ⟨(h c).1.trans (Cert.Gcn.Kernel.W6_logits m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.Gcn.Reference.result_eq]
    obtain ⟨h0, h1, h2, h3, h4, h5, h6, h7⟩ := hagree c
    rw [h0, h1, h2, h3, h4, h5, h6, h7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
